-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S640000 32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S640000 32 := broadcastInDim S640000 ![] bcast_S_S640000 main_c_8
  let main_v25 : IVec S640000 1 := cmpi .sge main_arg1 main_v24
  let main_c_9 : IVec S_ 32 := constantI S_ 32 100000#32
  let main_v26 : IVec S640000 32 := broadcastInDim S640000 ![] bcast_S_S640000 main_c_9
  let main_v27 : IVec S640000 1 := cmpi .slt main_arg1 main_v26
  let main_v28 : IVec S640000 1 := andi main_v25 main_v27
  let main_c_10 : IVec S_ 1 := constantI S_ 1 1#1
  let main_v29 : IVec S_ 1 := (fun x v => Host.reduce IntOp.andi x v reducesTo_S640000_S_d0 h_S_) main_v28 main_c_10
  let main_v30 : IVec S_ 1 := andi main_v23 main_v29
  main_v30

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩

abbrev nBuf : Space → Nat
  | .hbm => 40
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S100000x128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S100000x128, .f32⟩
  | .hbm, ⟨35, _⟩ => ⟨S640000x1, .i32⟩
  | .hbm, ⟨36, _⟩ => ⟨S100000x128, .f32⟩
  | .hbm, ⟨37, _⟩ => ⟨S128x128, .f32⟩
  | .hbm, ⟨38, _⟩ => ⟨S1x128, .f32⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩

abbrev nBuf : Space → Nat
  | .hbm => 33
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S100000x128, .f32⟩
  | .hbm, ⟨26, _⟩ => ⟨S640000x1, .i32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.Dense.lean ====
/-
  The dense layer both programs apply twice: the rows of an array with 128 columns times a 128 × 128 matrix, plus a bias
  row, as one function of the coordinates over the extended reals. Entry (p, q) is  ∑ₖ x[p, k] · w[k, q] + bias[q].
  The first layer is followed by a rectifier, max(·, 0).
-/
import Idealize.ShloMosaic.PureOps.Ideal
import Idealize.ShloMosaic.PureOps.Ideal.Laws
import Idealize.ShloMosaic.Lib.ValueIdx

noncomputable section

open scoped BigOperators

namespace Cert.Dense

open Idealize.ShloMosaic Idealize.ShloMosaic.ValueIdx

/-- Entry (p, q) of x · w + bias: the sum over the 128 shared coordinates of x[p, k] · w[k, q], plus bias[q]. -/
def entry {n : Nat} (x : (⟨2, ![n, 128]⟩ : Shape).Idx → EReal) (w : (⟨2, ![128, 128]⟩ : Shape).Idx → EReal)
    (bias : Fin 128 → EReal) (p : Fin n) (q : Fin 128) : EReal :=
  (∑ k : Fin 128, x (ix2 p k) * w (ix2 k q)) + bias q

/-- The layer on a whole array of n rows. -/
def layer {n : Nat} (x : (⟨2, ![n, 128]⟩ : Shape).Idx → EReal) (w : (⟨2, ![128, 128]⟩ : Shape).Idx → EReal)
    (bias : Fin 128 → EReal) : (⟨2, ![n, 128]⟩ : Shape).Idx → EReal :=
  fun i => entry x w bias ⟨(i 0).val, (i 0).isLt⟩ ⟨(i 1).val, (i 1).isLt⟩

/-- The layer followed by the rectifier. -/
def layerRelu {n : Nat} (x : (⟨2, ![n, 128]⟩ : Shape).Idx → EReal) (w : (⟨2, ![128, 128]⟩ : Shape).Idx → EReal)
    (bias : Fin 128 → EReal) : (⟨2, ![n, 128]⟩ : Shape).Idx → EReal :=
  fun i => max (entry x w bias ⟨(i 0).val, (i 0).isLt⟩ ⟨(i 1).val, (i 1).isLt⟩) 0

/-- A row block of the layer is the layer of the row block: entry (p, q) only reads row p of x. -/
theorem entry_rows {n n' : Nat} (x : (⟨2, ![n, 128]⟩ : Shape).Idx → EReal) (x' : (⟨2, ![n', 128]⟩ : Shape).Idx → EReal)
    (w : (⟨2, ![128, 128]⟩ : Shape).Idx → EReal) (bias : Fin 128 → EReal) (p : Fin n) (p' : Fin n') (q : Fin 128)
    (h : ∀ k : Fin 128, x (ix2 p k) = x' (ix2 p' k)) : entry x w bias p q = entry x' w bias p' q := by
  unfold entry
  exact congrArg (· + bias q) (Finset.sum_congr rfl fun k _ => by rw [h k])

end Cert.Dense

end
-- ==== Proof.Payload.lean ====
/-
  What each of the two kernel bodies stores, read at one entry of its 5000 × 128 block: the block's rows times the
  128 × 128 matrix plus the bias row (the matrix unit's product into a zero accumulator is the plain sum over the shared
  coordinate; the roundings to a narrower format on the way in are the identity on extended reals), and for the first
  body the rectifier max(·, 0) on top.
-/
import proofs.«424247_j22746146799734_1_alg».proof.Proof.Gen.KernelIdeal.Skeleton
import proofs.«424247_j22746146799734_1_alg».proof.Proof.Dense
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The matrix product's left operand is read at (the output's row, the summed coordinate) … -/
theorem lhs_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
/-- … and the right operand at (the summed coordinate, the output's column). -/
theorem rhs_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a block with the matrix, into a zero accumulator, at entry (p, q): ∑ₖ x[p, k] · w[k, q]. -/
theorem matmul_zero_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row laid under every row of the block reads, at (p, q), the row's entry q. -/
theorem bias_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The first body's store at (p, q): max(∑ₖ x[p, k] · w[k, q] + b[0, q], 0). -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = max (Cert.Dense.entry x0 x1 (fun q => x2 (ix2 0 q)) p q) 0 := by
  unfold k0_pay1 Cert.Dense.entry
  simp only [shapeCast_self]
  rw [maximumf_apply, addf_apply, matmul_zero_apply, bias_apply, broadcast_apply]
  show max _ (Ideal.ofBits .f32 0x00000000#32) = _
  rw [Ideal.ofBits_zero_f32]
  rfl

/-- The second body's store at (p, q): ∑ₖ x[p, k] · w[k, q] + b[0, q]. -/
theorem pay1_apply (x0 : Vec Ideal S5000x128 .f32) (x1 : Vec Ideal S128x128 .f32) (x2 : Vec Ideal S1x128 .f32)
    (p : Fin 5000) (q : Fin 128) :
    k1_pay1 (F := Ideal) x0 x1 x2 (ix2 p q) = Cert.Dense.entry x0 x1 (fun q => x2 (ix2 0 q)) p q := by
  unfold k1_pay1 Cert.Dense.entry
  simp only [shapeCast_self]
  rw [addf_apply, matmul_zero_apply, bias_apply]
  rfl

end Cert.KernelIdeal.Pay

end
-- ==== Proof.Region0.lean ====
/-
  What the first dense kernel leaves in its output array, for ANY contents the region is entered with: the rectified
  layer of its three operand arrays, index by index. The grid's 20 points each take one block of 5000 rows of the input,
  the whole matrix and the whole bias row, and write back the same 5000 rows of the output; row r of the output is written
  by point r / 5000, and every row is written by exactly one point, so the blocks tile the array.
-/
import proofs.«424247_j22746146799734_1_alg».proof.Proof.Gen.KernelIdeal.Frame
import proofs.«424247_j22746146799734_1_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The three operand arrays as the region finds them, at their literal types. -/
abbrev xarr (c : Dev nD) : Vec Ideal S100000x128 .f32 := V c main_arg0
abbrev warr (c : Dev nD) : Vec Ideal S128x128 .f32 := V c main_v0
abbrev barr (c : Dev nD) : Vec Ideal S1x128 .f32 := V c main_v1

/-- What the output array ends holding: the rectified layer of the operand arrays. -/
abbrev G (c : Dev nD) : Vec Ideal S100000x128 .f32 :=
  Cert.Dense.layerRelu (xarr V c) (warr V c) (fun q => barr V c (ix2 0 q))

/-- The printed index maps over the grid: the input's and the output's row block is the point's number, the matrix and the
    bias row are always their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a point's store is the layer's entry at the same row of the whole array: stated over variables of the
    literal types, the row and column relations as hypotheses. -/
theorem block_entry (x0 : Vec Ideal S5000x128 .f32) (x1 : Vec Ideal S128x128 .f32) (x2 : Vec Ideal S1x128 .f32)
    (X : Vec Ideal S100000x128 .f32) (j : S5000x128.Idx) (i : S100000x128.Idx)
    (hrow : ∀ k : Fin 128, x0 (ix2 ⟨(j 0).val, (j 0).isLt⟩ k) = X (ix2 ⟨(i 0).val, (i 0).isLt⟩ k))
    (hcol : (i 1).val = (j 1).val) :
    k0_pay1 (F := Ideal) x0 x1 x2 j = Cert.Dense.layerRelu X x1 (fun q => x2 (ix2 0 q)) i := by
  obtain ⟨p, q, rfl⟩ : ∃ (p : Fin 5000) (q : Fin 128), j = ix2 p q := ⟨j 0, j 1, eq_ix2 j⟩
  rw [Cert.KernelIdeal.Pay.pay0_apply]
  unfold Cert.Dense.layerRelu
  have hq : (⟨(i 1).val, (i 1).isLt⟩ : Fin 128) = q := Fin.ext hcol
  rw [hq]
  exact congrArg (max · 0) (Cert.Dense.entry_rows x0 X x1 _ p ⟨(i 0).val, (i 0).isLt⟩ q hrow)

/-- WHAT POINT t WRITES BACK is block t of the rectified layer of the operand arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  have hw : (iblk0 V c 1 t : Vec Ideal S128x128 .f32) = warr V c := by
    funext y
    show V c main_v0 (((cfg0.win 1).blk t).view.emb y) = V c main_v0 y
    refine congrArg (V c main_v0) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hb : (iblk0 V c 2 t : Vec Ideal S1x128 .f32) = barr V c := by
    funext y
    show V c main_v1 (((cfg0.win 2).blk t).view.emb y) = V c main_v1 y
    refine congrArg (V c main_v1) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [hw, hb]
  funext j
  show k0_pay1 (F := Ideal) (iblk0 V c 0 t) (warr V c) (barr V c) j = G V c (((cfg0.win 3).blk t).view.emb j)
  refine block_entry (iblk0 V c 0 t) (warr V c) (barr V c) (xarr V c) j (((cfg0.win 3).blk t).view.emb j) (fun k => ?_) ?_
  · show V c main_arg0 (((cfg0.win 0).blk t).view.emb (ix2 ⟨(j 0).val, (j 0).isLt⟩ k)) = V c main_arg0 _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show win0_3.index t (1 : Fin 2) * 128 + 1 * (j 1).val = (j 1).val; omega

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Row r is in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e6, e7⟩ := idx_facts ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- THE OUTPUT ARRAY after the region: the rectified layer of the operand arrays as the region found them. -/
theorem final (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  What the second dense kernel leaves in its output array, for ANY contents the region is entered with: the
  layer of its three operand arrays, index by index. The grid's 20 points each take one block of 5000 rows of the input,
  the whole matrix and the whole bias row, and write back the same 5000 rows of the output; row r of the output is written
  by point r / 5000, and every row is written by exactly one point, so the blocks tile the array.
-/
import proofs.«424247_j22746146799734_1_alg».proof.Proof.Gen.KernelIdeal.Frame
import proofs.«424247_j22746146799734_1_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The three operand arrays as the region finds them, at their literal types. -/
abbrev xarr (c : Dev nD) : Vec Ideal S100000x128 .f32 := V c main_v6
abbrev warr (c : Dev nD) : Vec Ideal S128x128 .f32 := V c main_v7
abbrev barr (c : Dev nD) : Vec Ideal S1x128 .f32 := V c main_v8

/-- What the output array ends holding: the layer of the operand arrays. -/
abbrev G (c : Dev nD) : Vec Ideal S100000x128 .f32 :=
  Cert.Dense.layer (xarr V c) (warr V c) (fun q => barr V c (ix2 0 q))

/-- The printed index maps over the grid: the input's and the output's row block is the point's number, the matrix and the
    bias row are always their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a point's store is the layer's entry at the same row of the whole array: stated over variables of the
    literal types, the row and column relations as hypotheses. -/
theorem block_entry (x0 : Vec Ideal S5000x128 .f32) (x1 : Vec Ideal S128x128 .f32) (x2 : Vec Ideal S1x128 .f32)
    (X : Vec Ideal S100000x128 .f32) (j : S5000x128.Idx) (i : S100000x128.Idx)
    (hrow : ∀ k : Fin 128, x0 (ix2 ⟨(j 0).val, (j 0).isLt⟩ k) = X (ix2 ⟨(i 0).val, (i 0).isLt⟩ k))
    (hcol : (i 1).val = (j 1).val) :
    k1_pay1 (F := Ideal) x0 x1 x2 j = Cert.Dense.layer X x1 (fun q => x2 (ix2 0 q)) i := by
  obtain ⟨p, q, rfl⟩ : ∃ (p : Fin 5000) (q : Fin 128), j = ix2 p q := ⟨j 0, j 1, eq_ix2 j⟩
  rw [Cert.KernelIdeal.Pay.pay1_apply]
  unfold Cert.Dense.layer
  have hq : (⟨(i 1).val, (i 1).isLt⟩ : Fin 128) = q := Fin.ext hcol
  rw [hq]
  exact Cert.Dense.entry_rows x0 X x1 _ p ⟨(i 0).val, (i 0).isLt⟩ q hrow

/-- WHAT POINT t WRITES BACK is block t of the layer of the operand arrays. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  have hw : (iblk1 V c 1 t : Vec Ideal S128x128 .f32) = warr V c := by
    funext y
    show V c main_v7 (((cfg1.win 1).blk t).view.emb y) = V c main_v7 y
    refine congrArg (V c main_v7) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have hb : (iblk1 V c 2 t : Vec Ideal S1x128 .f32) = barr V c := by
    funext y
    show V c main_v8 (((cfg1.win 2).blk t).view.emb y) = V c main_v8 y
    refine congrArg (V c main_v8) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [hw, hb]
  funext j
  show k1_pay1 (F := Ideal) (iblk1 V c 0 t) (warr V c) (barr V c) j = G V c (((cfg1.win 3).blk t).view.emb j)
  refine block_entry (iblk1 V c 0 t) (warr V c) (barr V c) (xarr V c) j (((cfg1.win 3).blk t).view.emb j) (fun k => ?_) ?_
  · show V c main_v6 (((cfg1.win 0).blk t).view.emb (ix2 ⟨(j 0).val, (j 0).isLt⟩ k)) = V c main_v6 _
    refine congrArg (V c main_v6) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show win1_3.index t (1 : Fin 2) * 128 + 1 * (j 1).val = (j 1).val; omega

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v9).slice (win1_3.rect t)).set ↔ _
  rw [View.set_slice_whole, Rect.mem_set_unit]
  exact Iff.rfl

/-- Row r is in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨-, -, -, -, -, -, e6, e7⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- THE OUTPUT ARRAY after the region: the layer of the operand arrays as the region found them. -/
theorem final (c : Dev nD) : (dat1 V c).arrAt 3 cfg1.N = G V c :=
  (dat1 V c).arrAt_eq_of_cover 3 (G V c) (fun t _ => flushed_eq V c t) (cover)

end Cert.KernelIdeal.Region1

end
-- ==== Proof.LibAndAll.lean ====
/-
  GENERAL LEMMAS (no program imported): a reduction by `and` of one-bit words, started from 1, over words that are all 1,
  is 1 — the converse of reading a printed `jnp.all` back. A range mask computed on the host (`(0 ≤ i) & (i ≤ n − 1)`
  reduced by `and` along a unit axis) is all ones when every index is in range.
-/
import Idealize.ShloMosaic.Lib.ReduceAll
import Idealize.ShloMosaic.PureOps.Reduce

namespace Cert.AndAll

open Idealize.ShloMosaic

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi (1#1) (1#1) = 1#1 from by decide]
    exact foldl_andi_one f l fun n hn => h n (List.mem_cons_of_mem _ hn)

/-- A `stablehlo.reduce` by `and`, from an initial value that is 1, of an array of ones is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hall : ∀ i, x i = 1#1) : Host.reduce IntOp.andi x init h hu j = 1#1 := by
  rw [Host.reduce_eq_foldl, hinit]
  exact foldl_andi_one x _ fun n _ => hall n

end Cert.AndAll
-- ==== Proof.Take.lean ====
/-
  The kernel program's row gather (`jnp.take` at its default mode): the edge's source index, wrapped once if negative,
  is looked up in the table of node rows, and a row whose wrapped index falls outside [0, 99999] is replaced by a fill
  value. When every source index is a node index, 0 ≤ src[e] < 100000, no index is negative (nothing wraps) and none is
  outside, so the range mask is all ones and the take IS the plain gather at the wrapped indices.
-/
import proofs.«424247_j22746146799734_1_alg».proof.Proof.Gen.KernelIdeal
import proofs.«424247_j22746146799734_1_alg».proof.Proof.LibAndAll
import Idealize.ShloMosaic.Lib.Pipeline.Value
import Idealize.ShloMosaic.Lib.ValueIdx
import Idealize.ShloMosaic.Lib.Affine

noncomputable section

namespace Cert.KernelIdeal.Take

open Cert.KernelIdeal Cert.KernelIdeal.Gen Idealize.ShloMosaic Idealize.ShloMosaic.ValueIdx

variable {F : FTy → Type} [FloatOps F]

/-- The source indices as the gather's start indices: a negative index moved up by the table's 100000 rows, laid as a column. -/
def wrapIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 100000#32))) src)

/-- The range mask: 0 ≤ index ≤ 99999 on the column, reduced by `and` along its unit axis, laid along each gathered row. -/
def inRange (src : IVec S640000 32) : IVec S640000x128 1 :=
  broadcastInDim S640000x128 ![0] bcast_S640000_S640000x128_0
    ((fun x v => Host.reduce IntOp.andi x v reducesTo_S640000x1_S640000_d1 h_S_)
      (andi (cmpi .sge (wrapIdx src) (broadcastInDim S640000x1 ![] bcast_S_S640000x1 (constantI S_ 32 0#32)))
        (cmpi .sle (wrapIdx src) (broadcastInDim S640000x1 ![0, 1] bcast_S1x1_S640000x1_0_1
          (broadcastInDim S1x1 ![1] bcast_S1_S1x1_1 (constantI S1 32 99999#32)))))
      (constantI S_ 1 1#1))

/-- The take: the gathered rows where the index is in range, the fill value elsewhere. -/
def take (h : FVec F S100000x128 .f32) (src : IVec S640000 32) : FVec F S640000x128 .f32 :=
  select (inRange src) (Host.gather gather_S100000x128_S640000x1_S640000x128_1_0_n_n_0_1_1128 h (wrapIdx src))
    (broadcastInDim S640000x128 ![] bcast_S_S640000x128 (constant S_ .f32 0x7FC00000#32))

/-- Edge e of a column index. -/
abbrev edge (i : S640000x1.Idx) : S640000.Idx := fun a => match a with
  | ⟨0, _⟩ => ⟨(i 0).val, (i 0).isLt⟩

/-- A nonnegative source index is not wrapped: the start index of edge e is src[e]. -/
theorem wrapIdx_apply (src : IVec S640000 32) (i : S640000x1.Idx)
    (h0 : IntOp.cmpi .sge (src (edge i)) 0#32 = 1#1) : wrapIdx src i = src (edge i) := by
  unfold wrapIdx
  rw [broadcastInDim_apply _ bcast_S640000_S640000x1_0 _ i (edge i) (fun a => match a with
    | ⟨0, _⟩ => by show (i 0).val = if (640000 : Nat) = 1 then 0 else (i 0).val; rw [if_neg (by decide)])]
  rw [select_apply]
  have hz : (cmpi .slt src (broadcastInDim S640000 ![] bcast_S_S640000 (constantI S_ 32 0#32))) (edge i) = 0#1 := by
    show IntOp.cmpi .slt (src (edge i)) 0#32 = 0#1
    apply eq_zero_of_ne_one
    rw [IntOp.cmpi_slt]
    rw [IntOp.cmpi_sge] at h0
    omega
  rw [hz, select_zero]

/-- With every source index in [0, 100000) the range mask is all ones. -/
theorem inRange_one (src : IVec S640000 32)
    (hsrc : ∀ e : S640000.Idx, IntOp.cmpi .sge (src e) 0#32 = 1#1 ∧ IntOp.cmpi .slt (src e) 100000#32 = 1#1)
    (j : S640000x128.Idx) : inRange src j = 1#1 := by
  unfold inRange
  rw [broadcastInDim_apply _ bcast_S640000_S640000x128_0 _ j (fun a => match a with | ⟨0, _⟩ => ⟨(j 0).val, (j 0).isLt⟩) (fun a => match a with
    | ⟨0, _⟩ => by show (j 0).val = if (640000 : Nat) = 1 then 0 else (j 0).val; rw [if_neg (by decide)])]
  refine Cert.AndAll.reduce_andi_one _ _ _ _ _ rfl fun i => ?_
  show IntOp.andi (IntOp.cmpi .sge (wrapIdx src i) 0#32) (IntOp.cmpi .sle (wrapIdx src i) 99999#32) = 1#1
  obtain ⟨h0, h1⟩ := hsrc (edge i)
  rw [wrapIdx_apply src i h0, IntOp.andi_eq_one]
  refine ⟨h0, ?_⟩
  rw [IntOp.cmpi_sle]
  rw [IntOp.cmpi_slt] at h1
  have e1 : (100000#32 : BitVec 32).toInt = 100000 := by decide
  have e2 : (99999#32 : BitVec 32).toInt = 99999 := by decide
  omega

/-- So the take is the plain gather at the wrapped indices. -/
theorem take_eq_gather (h : FVec F S100000x128 .f32) (src : IVec S640000 32)
    (hsrc : ∀ e : S640000.Idx, IntOp.cmpi .sge (src e) 0#32 = 1#1 ∧ IntOp.cmpi .slt (src e) 100000#32 = 1#1) :
    take h src = Host.gather gather_S100000x128_S640000x1_S640000x128_1_0_n_n_0_1_1128 h (wrapIdx src) := by
  funext j
  unfold take
  rw [select_apply, inRange_one src hsrc j, select_one]

end Cert.KernelIdeal.Take

end
-- ==== Proof.LibTypedRefs.lean ====
/-
  GENERAL LEMMAS (no program imported): the operations of a function jax outlined (`jnp.take`, `jnp.where`, …) are printed
  over typed references, and each moves its operands from their buffers' types to the values' types and its result back
  (`TRef.ofBuf`, `TRef.toBuf`: transports along an equation of types that holds by computation at a literal buffer).
  Reading such a stretch of operations off with the result lemmas leaves those transports around every value, and a
  comparison by unfolding through them can wander into a reduction over a full-size array. They are removed without
  unfolding anything: `ofBuf_toBuf` cancels a round trip for ANY typed reference (so it rewrites syntactically), and
  `toBuf_lit` removes a lone one at a literal reference. With the library's `StableHlo.after_append` a long stretch is read in
  short runs, each run's values stated with their transports.
-/
import Idealize.ShloMosaic.Lib.StableHlo.Run

namespace Cert.TypedRefs

open Idealize.ShloMosaic Idealize.ShloMosaic.StableHlo

variable {τ : Topo} {sig : RefSig} {Val : EltTy → Type} {T : BufTy}

/-- A value moved to a typed reference's buffer type and back is itself. -/
theorem ofBuf_toBuf (x : TRef sig T) (v : T.Contents Val) : x.ofBuf (x.toBuf v) = v := by
  obtain ⟨r, h, hd, hu⟩ := x
  subst h
  rfl

/-- A value at a typed reference's type, moved to its buffer's type, is the same value there (the two types are one at a
    literal reference, which is what lets `w` be written). -/
theorem toBuf_lit (x : TRef sig T) (v : T.Contents Val) (w : x.ref.ty.Contents Val) (h : HEq v w) : x.toBuf v = w :=
  eq_of_heq ((cast_heq _ v).trans h)

end Cert.TypedRefs
-- ==== Proof.LibTypedLeaf.lean ====
/-
  GENERAL LEMMA (no program imported): the contents of a buffer read at a typed reference's value type. An operation of a
  function jax outlined reads its operand through a transport along the equation "the buffer's type is the value's type";
  at a literal buffer the two types are one, and the transported contents are the contents (stated with a heterogeneous
  equality so that it applies whatever spelling the two types have).
-/
import Idealize.ShloMosaic.Lib.StableHlo.Run

namespace Cert.TypedLeaf

open Idealize.ShloMosaic Idealize.ShloMosaic.StableHlo

variable {sig : RefSig} {Val : EltTy → Type} {T : BufTy}

/-- A buffer's contents moved to a typed reference's value type are the same contents there. -/
theorem ofBuf_lit (x : TRef sig T) (w : x.ref.ty.Contents Val) (v : T.Contents Val) (h : HEq w v) : x.ofBuf w = v :=
  eq_of_heq ((cast_heq _ w).trans h)

end Cert.TypedLeaf
-- ==== Proof.HostChain.lean ====
/-
  The host operations of the kernel program between its two dense regions, read off ANY contents they start from:
  before the first region a transpose of the first weight matrix and a reshape of the first bias to a row; between the
  regions the row gather (the take of `Take.lean`, the outlined function's typed-reference transports cancelled), the
  scatter-add of the gathered rows at the destination indices into zeros, a transpose of the second weight matrix and a
  reshape of the second bias. Buffers no operation of a stretch writes keep their contents.
-/
import proofs.«424247_j22746146799734_1_alg».proof.Proof.Gen.KernelIdeal.Launch
import proofs.«424247_j22746146799734_1_alg».proof.Proof.Take
import proofs.«424247_j22746146799734_1_alg».proof.Proof.LibTypedRefs
import proofs.«424247_j22746146799734_1_alg».proof.Proof.LibTypedLeaf
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable {F : FTy → Type} [FloatOps F]
variable (X : Valuation τ sig (Elt F))

/-! ## Before the first region -/

theorem pre_x : StableHlo.after hostOps0 X (Proc.devRef .tc main_arg0) = X (Proc.devRef .tc main_arg0) := by
  after_results <;> rfl
theorem pre_src : StableHlo.after hostOps0 X (Proc.devRef .tc main_arg1) = X (Proc.devRef .tc main_arg1) := by
  after_results <;> rfl
theorem pre_dst : StableHlo.after hostOps0 X (Proc.devRef .tc main_arg2) = X (Proc.devRef .tc main_arg2) := by
  after_results <;> rfl
theorem pre_w2 : StableHlo.after hostOps0 X (Proc.devRef .tc main_arg5) = X (Proc.devRef .tc main_arg5) := by
  after_results <;> rfl
theorem pre_b2 : StableHlo.after hostOps0 X (Proc.devRef .tc main_arg6) = X (Proc.devRef .tc main_arg6) := by
  after_results <;> rfl
theorem pre_wt : StableHlo.after hostOps0 X (Proc.devRef .tc main_v0)
    = transpose S128x128 [1, 0] (X (Proc.devRef .tc main_arg3)) transposes_S128x128_S128x128_1_0 := by
  after_results <;> rfl
theorem pre_brow : StableHlo.after hostOps0 X (Proc.devRef .tc main_v1)
    = shapeCast S1x128 (X (Proc.devRef .tc main_arg4)) shapeCasts_S128_S1x128 := by
  after_results <;> rfl

/-! ## Between the regions: the take -/

theorem mid_src : StableHlo.after hostOps1 X (Proc.devRef .tc main_arg1) = X (Proc.devRef .tc main_arg1) := by
  after_results <;> rfl
theorem mid_dst : StableHlo.after hostOps1 X (Proc.devRef .tc main_arg2) = X (Proc.devRef .tc main_arg2) := by
  after_results <;> rfl
theorem mid_w2 : StableHlo.after hostOps1 X (Proc.devRef .tc main_arg5) = X (Proc.devRef .tc main_arg5) := by
  after_results <;> rfl
theorem mid_b2 : StableHlo.after hostOps1 X (Proc.devRef .tc main_arg6) = X (Proc.devRef .tc main_arg6) := by
  after_results <;> rfl

set_option maxRecDepth 200000 in
set_option maxHeartbeats 2000000 in
/-- The outlined take, its operations read in order: every value's round trip through its buffer's type cancels, the two
    operands and the result are read at literal buffers, and what is left is `Take.take` unfolded. -/
theorem mid_take : StableHlo.after hostOps1 X (Proc.devRef .tc main_v3)
    = Cert.KernelIdeal.Take.take (F := F) (X (Proc.devRef .tc main_v2)) (X (Proc.devRef .tc main_arg1)) := by
  after_results
  simp only [Cert.TypedRefs.ofBuf_toBuf]
  have e1 : (TRef.of main_arg1 : TRef sig ⟨S640000, .i32⟩).ofBuf (X (Proc.devRef .tc main_arg1)) = X (Proc.devRef .tc main_arg1) :=
    Cert.TypedLeaf.ofBuf_lit _ _ _ HEq.rfl
  have e2 : (TRef.of main_v2 : TRef sig ⟨S100000x128, .f32⟩).ofBuf (X (Proc.devRef .tc main_v2)) = X (Proc.devRef .tc main_v2) :=
    Cert.TypedLeaf.ofBuf_lit _ _ _ HEq.rfl
  rw [e1, e2]
  refine Cert.TypedRefs.toBuf_lit _ _ _ (heq_of_eq ?_)
  rfl

/-! ## Between the regions: the scatter-add and the second layer's operands -/

theorem post_agg : StableHlo.after hostOps1_1 X (Proc.devRef .tc main_v6)
    = Host.scatterAdd scatter_S100000x128_S640000x1_S640000x128_1_0_0_1
        (broadcastInDim S100000x128 ![] bcast_S_S100000x128 (constant S_ .f32 0x00000000#32))
        (broadcastInDim S640000x1 ![0] bcast_S640000_S640000x1_0 (X (Proc.devRef .tc main_arg2)))
        (X (Proc.devRef .tc main_v3)) := by
  after_results <;> rfl
theorem post_wt : StableHlo.after hostOps1_1 X (Proc.devRef .tc main_v7)
    = transpose S128x128 [1, 0] (X (Proc.devRef .tc main_arg5)) transposes_S128x128_S128x128_1_0 := by
  after_results <;> rfl
theorem post_brow : StableHlo.after hostOps1_1 X (Proc.devRef .tc main_v8)
    = shapeCast S1x128 (X (Proc.devRef .tc main_arg6)) shapeCasts_S128_S1x128 := by
  after_results <;> rfl

end Cert.KernelIdeal.HostChain

end
-- ==== Proof.Result.lean ====
/-
  The kernel program's result array as ONE function of its seven arguments, at the ideal instance: the boundary contents
  of the generated frame run are walked from the end — the second region's output is the layer of the aggregated messages,
  the second weight matrix transposed and the second bias as a row; the aggregated messages are the scatter-add, at the
  destination indices into zeros, of the rows taken at the source indices from the first region's output; and that
  output is the rectified layer of the node features, the first weight matrix transposed and the first bias as a row.
-/
import proofs.«424247_j22746146799734_1_alg».proof.Proof.Gen.KernelIdeal.Frame
import proofs.«424247_j22746146799734_1_alg».proof.Proof.Region0
import proofs.«424247_j22746146799734_1_alg».proof.Proof.Region1
import proofs.«424247_j22746146799734_1_alg».proof.Proof.HostChain

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx

/-- The messages h = max(x · Wᵀ + b, 0) taken at the source indices and summed at the destination indices. -/
def agg (x : FVec Ideal S100000x128 .f32) (src dst : IVec S640000 32) (wm : FVec Ideal S128x128 .f32) (bm : FVec Ideal S128 .f32) :
    FVec Ideal S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 dst)
    (Cert.KernelIdeal.Take.take (F := Ideal)
      (Cert.Dense.layerRelu x (transpose S128x128 [1, 0] wm transposes_S128x128_S128x128_1_0)
        (fun q => shapeCast S1x128 bm shapeCasts_S128_S1x128 (ix2 0 q))) src)

/-- The result: the second layer of the aggregated messages. -/
def out (x : FVec Ideal S100000x128 .f32) (src dst : IVec S640000 32) (wm : FVec Ideal S128x128 .f32) (bm : FVec Ideal S128 .f32)
    (wo : FVec Ideal S128x128 .f32) (bo : FVec Ideal S128 .f32) : FVec Ideal S100000x128 .f32 :=
  Cert.Dense.layer (agg x src dst wm bm) (transpose S128x128 [1, 0] wo transposes_S128x128_S128x128_1_0)
    (fun q => shapeCast S1x128 bo shapeCasts_S128_S1x128 (ix2 0 q))

variable (m : (ℓ : Loc nD τ sig) → Buf (Elt Ideal) ℓ) (ρ : Dev nD → PrngReg)

/-- The first region's output: the rectified layer of the arguments. -/
theorem hidden_eq (c : Dev nD) : W2 m ρ c (Proc.devRef .tc main_v2)
    = Cert.Dense.layerRelu (m ((c.tc : Thread nD τ).loc main_arg0))
        (transpose S128x128 [1, 0] (m ((c.tc : Thread nD τ).loc main_arg3)) transposes_S128x128_S128x128_1_0)
        (fun q => shapeCast S1x128 (m ((c.tc : Thread nD τ).loc main_arg4)) shapeCasts_S128_S1x128 (ix2 0 q)) := by
  refine (W2_arr m ρ c 3).trans ((Cert.KernelIdeal.Region0.final (V1 m ρ) c).trans ?_)
  have e0 : V1 m ρ c main_arg0 = m ((c.tc : Thread nD τ).loc main_arg0) := Cert.KernelIdeal.HostChain.pre_x (W0 m ρ c)
  have e1 : V1 m ρ c main_v0 = transpose S128x128 [1, 0] (m ((c.tc : Thread nD τ).loc main_arg3)) transposes_S128x128_S128x128_1_0 :=
    Cert.KernelIdeal.HostChain.pre_wt (W0 m ρ c)
  have e2 : V1 m ρ c main_v1 = shapeCast S1x128 (m ((c.tc : Thread nD τ).loc main_arg4)) shapeCasts_S128_S1x128 :=
    Cert.KernelIdeal.HostChain.pre_brow (W0 m ρ c)
  show Cert.Dense.layerRelu (V1 m ρ c main_arg0) (V1 m ρ c main_v0) (fun q => V1 m ρ c main_v1 (ix2 0 q)) = _
  rw [e0, e1, e2]

/-- An argument the first stretch and the first region do not write is, at the first region's exit, as launched. -/
theorem W2_src (c : Dev nD) : W2 m ρ c (Proc.devRef .tc main_arg1) = m ((c.tc : Thread nD τ).loc main_arg1) :=
  (W2_of_ne m ρ c main_arg1 (by decide)).trans (Cert.KernelIdeal.HostChain.pre_src (W0 m ρ c))
theorem W2_dst (c : Dev nD) : W2 m ρ c (Proc.devRef .tc main_arg2) = m ((c.tc : Thread nD τ).loc main_arg2) :=
  (W2_of_ne m ρ c main_arg2 (by decide)).trans (Cert.KernelIdeal.HostChain.pre_dst (W0 m ρ c))
theorem W2_w2 (c : Dev nD) : W2 m ρ c (Proc.devRef .tc main_arg5) = m ((c.tc : Thread nD τ).loc main_arg5) :=
  (W2_of_ne m ρ c main_arg5 (by decide)).trans (Cert.KernelIdeal.HostChain.pre_w2 (W0 m ρ c))
theorem W2_b2 (c : Dev nD) : W2 m ρ c (Proc.devRef .tc main_arg6) = m ((c.tc : Thread nD τ).loc main_arg6) :=
  (W2_of_ne m ρ c main_arg6 (by decide)).trans (Cert.KernelIdeal.HostChain.pre_b2 (W0 m ρ c))

/-- The taken rows, after the stretch between the regions. -/
theorem taken_eq (c : Dev nD) : W3 m ρ c (Proc.devRef .tc main_v3)
    = Cert.KernelIdeal.Take.take (F := Ideal) (W2 m ρ c (Proc.devRef .tc main_v2)) (m ((c.tc : Thread nD τ).loc main_arg1)) :=
  (Cert.KernelIdeal.HostChain.mid_take (W2 m ρ c)).trans (by rw [W2_src])

/-- The second region's three operand arrays as it finds them. -/
theorem agg_eq (c : Dev nD) : V4 m ρ c main_v6
    = agg (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (Cert.KernelIdeal.HostChain.post_agg (W3 m ρ c)).trans ?_
  have ed : W3 m ρ c (Proc.devRef .tc main_arg2) = m ((c.tc : Thread nD τ).loc main_arg2) :=
    (Cert.KernelIdeal.HostChain.mid_dst (W2 m ρ c)).trans (W2_dst m ρ c)
  rw [ed, taken_eq, hidden_eq]
  rfl
theorem wt2_eq (c : Dev nD) : V4 m ρ c main_v7
    = transpose S128x128 [1, 0] (m ((c.tc : Thread nD τ).loc main_arg5)) transposes_S128x128_S128x128_1_0 := by
  refine (Cert.KernelIdeal.HostChain.post_wt (W3 m ρ c)).trans ?_
  have e : W3 m ρ c (Proc.devRef .tc main_arg5) = m ((c.tc : Thread nD τ).loc main_arg5) :=
    (Cert.KernelIdeal.HostChain.mid_w2 (W2 m ρ c)).trans (W2_w2 m ρ c)
  rw [e]
theorem brow2_eq (c : Dev nD) : V4 m ρ c main_v8
    = shapeCast S1x128 (m ((c.tc : Thread nD τ).loc main_arg6)) shapeCasts_S128_S1x128 := by
  refine (Cert.KernelIdeal.HostChain.post_brow (W3 m ρ c)).trans ?_
  have e : W3 m ρ c (Proc.devRef .tc main_arg6) = m ((c.tc : Thread nD τ).loc main_arg6) :=
    (Cert.KernelIdeal.HostChain.mid_b2 (W2 m ρ c)).trans (W2_b2 m ρ c)
  rw [e]

/-- THE RESULT ARRAY at the last boundary is `out` of the arguments as launched. -/
theorem result_eq (c : Dev nD) : W5 m ρ c (Proc.devRef .tc main_v9)
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  refine (W5_arr m ρ c 3).trans ((Cert.KernelIdeal.Region1.final (V4 m ρ) c).trans ?_)
  show Cert.Dense.layer (V4 m ρ c main_v6) (V4 m ρ c main_v7) (fun q => V4 m ρ c main_v8 (ix2 0 q)) = _
  rw [agg_eq, wt2_eq, brow2_eq]
  rfl

end Cert.KernelIdeal.Result

end
-- ==== Proof.RefValue.lean ====
/-
  The reference's two dense layers, read index by index: the host's contraction of an [100000, 128] array with a
  [128, 128] matrix over the shared coordinate is the plain sum ∑ₖ X[p, k] · W[k, q] on the extended reals, a bias vector
  broadcast first to a row and then down the rows reads bias[q] at (p, q), and the rectifier is max(·, 0) against a
  broadcast zero. So each layer is the one function `Cert.Dense.layer` (`layerRelu`) of its operands.
-/
import proofs.«424247_j22746146799734_1_alg».proof.Proof.Gen.ReferenceIdeal.Read
import proofs.«424247_j22746146799734_1_alg».proof.Proof.Dense
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The host's contraction at (p, q): ∑ₖ X[p, k] · W[k, q]. -/
theorem dot_apply (X : FVec Ideal S100000x128 .f32) (W : FVec Ideal S128x128 .f32) (i : S100000x128.Idx) :
    Host.dotGeneral dot_S100000x128_S128x128_S100000x128_1_0_0_1_n_n none X W i
      = ∑ k : Fin 128, X (ix2 (⟨(i 0).val, (i 0).isLt⟩ : Fin 100000) k) * W (ix2 k (⟨(i 1).val, (i 1).isLt⟩ : Fin 128)) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 (⟨(i 0).val, (i 0).isLt⟩ : Fin 100000) k := funext fun a => Fin.ext (by
    match a with
    | ⟨0, _⟩ => exact Cert.ReferenceIdeal.Read.lhs_main_v1_0 _ _
    | ⟨1, _⟩ => exact (Cert.ReferenceIdeal.Read.lhs_main_v1_1 _ _).trans hk)
  have er : dot_S100000x128_S128x128_S100000x128_1_0_0_1_n_n.rhsIdx i ((contrEquiv1 dot_S100000x128_S128x128_S100000x128_1_0_0_1_n_n 128 rfl rfl).symm k) = ix2 k (⟨(i 1).val, (i 1).isLt⟩ : Fin 128) := funext fun a => Fin.ext (by
    match a with
    | ⟨0, _⟩ => exact (Cert.ReferenceIdeal.Read.rhs_main_v1_0 _ _).trans hk
    | ⟨1, _⟩ => exact Cert.ReferenceIdeal.Read.rhs_main_v1_1 _ _)
  rw [el, er]

/-- A bias vector broadcast to a row and the row down the rows reads, at (p, q), bias[q]. -/
theorem bias_apply (b : FVec Ideal S128 .f32) (i : S100000x128.Idx) :
    broadcastInDim S100000x128 ![0, 1] bcast_S1x128_S100000x128_0_1 (broadcastInDim S1x128 ![1] bcast_S128_S1x128_1 b) i
      = b (ix1 (⟨(i 1).val, (i 1).isLt⟩ : Fin 128)) := by
  rw [broadcastInDim_apply _ bcast_S1x128_S100000x128_0_1 _ i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ (ix1 (⟨(i 1).val, (i 1).isLt⟩ : Fin 128)) (fun a => match a with
    | ⟨0, _⟩ => by show (i 1).val = if (128 : Nat) = 1 then 0 else (i 1).val; rw [if_neg (by decide)])

/-- A dense layer of the reference is `Cert.Dense.layer` of its operands. -/
theorem layer_eq (X : FVec Ideal S100000x128 .f32) (W : FVec Ideal S128x128 .f32) (b : FVec Ideal S128 .f32) :
    addf (Host.dotGeneral dot_S100000x128_S128x128_S100000x128_1_0_0_1_n_n none X W)
        (broadcastInDim S100000x128 ![0, 1] bcast_S1x128_S100000x128_0_1 (broadcastInDim S1x128 ![1] bcast_S128_S1x128_1 b))
      = Cert.Dense.layer X W (fun q => b (ix1 q)) := by
  funext i
  rw [addf_apply, dot_apply, bias_apply]
  rfl

/-- The rectified layer likewise: the maximum with a broadcast zero is max(·, 0). -/
theorem layerRelu_eq (X : FVec Ideal S100000x128 .f32) (W : FVec Ideal S128x128 .f32) (b : FVec Ideal S128 .f32) :
    maximumf (addf (Host.dotGeneral dot_S100000x128_S128x128_S100000x128_1_0_0_1_n_n none X W)
        (broadcastInDim S100000x128 ![0, 1] bcast_S1x128_S100000x128_0_1 (broadcastInDim S1x128 ![1] bcast_S128_S1x128_1 b)))
        (broadcastInDim S100000x128 ![] bcast_S_S100000x128 (constant S_ .f32 0x00000000#32))
      = Cert.Dense.layerRelu X W (fun q => b (ix1 q)) := by
  funext i
  rw [maximumf_apply, addf_apply, dot_apply, bias_apply,
    broadcastInDim_apply _ bcast_S_S100000x128 (constant (F := Ideal) S_ .f32 0x00000000#32) i ix0 (fun a => a.elim0), constant_apply,
    Ideal.ofBits_zero_f32]
  rfl

end Cert.ReferenceIdeal.RefValue

end
-- ==== Proof.Bridge.lean ====
/-
  The two programs compute one function. The reference's run ends at  (agg · Wₒᵀ + bₒ)  with  agg  the scatter-add at the
  destination indices of the rows of  h = max(x · Wₘᵀ + bₘ, 0)  gathered at the (wrapped) source indices; the kernel
  program's result (`Result.out`) is the same composition with the two dense layers computed block by block, the biases
  passed as rows, and the gather guarded by a range mask. The layers agree index by index (`Cert.Dense.layer`,
  `layerRelu`: a sum of products over the 128 shared coordinates plus the bias, no law of the extended reals beyond
  reading both sides — so no finiteness is used), a bias read through its row is the bias, and under the precondition's
  range of the source indices the guarded gather is the plain one. The gather and the scatter-add themselves are the same
  operation applied to equal operands and are never opened.
-/
import proofs.«424247_j22746146799734_1_alg».proof.Proof.Result
import proofs.«424247_j22746146799734_1_alg».proof.Proof.RefValue
import Idealize.ShloMosaic.Lib.ValueLayout

noncomputable section

namespace Cert.Bridge

open Idealize.ShloMosaic Idealize.ShloMosaic.ValueIdx

/-- A bias vector reshaped to a row reads, at column q of the row, bias[q]. -/
theorem bias_row (b : FVec Ideal Cert.KernelIdeal.S128 .f32) :
    (fun q : Fin 128 => shapeCast Cert.KernelIdeal.S1x128 b Cert.KernelIdeal.Facts₀.shapeCasts_S128_S1x128 (ix2 (0 : Fin 1) q))
      = fun q => b (ix1 q) :=
  funext fun q => shapeCast_a_1a_apply b _ 0 q

/-- The reference's result term is the kernel program's result function, when every source index is a node index. -/
theorem ref_eq_out (x : FVec Ideal Cert.KernelIdeal.S100000x128 .f32) (src dst : IVec Cert.KernelIdeal.S640000 32)
    (wm : FVec Ideal Cert.KernelIdeal.S128x128 .f32) (bm : FVec Ideal Cert.KernelIdeal.S128 .f32)
    (wo : FVec Ideal Cert.KernelIdeal.S128x128 .f32) (bo : FVec Ideal Cert.KernelIdeal.S128 .f32)
    (hsrc : ∀ e : Cert.KernelIdeal.S640000.Idx, IntOp.cmpi .sge (src e) 0#32 = 1#1 ∧ IntOp.cmpi .slt (src e) 100000#32 = 1#1) :
    addf (Host.dotGeneral Cert.ReferenceIdeal.dot_S100000x128_S128x128_S100000x128_1_0_0_1_n_n none
        (Host.scatterAdd Cert.ReferenceIdeal.scatter_S100000x128_S640000x1_S640000x128_1_0_0_1
          (broadcastInDim Cert.ReferenceIdeal.S100000x128 ![] Cert.ReferenceIdeal.Facts₀.bcast_S_S100000x128 (constant Cert.ReferenceIdeal.S_ .f32 0x00000000#32))
          (broadcastInDim Cert.ReferenceIdeal.S640000x1 ![0] Cert.ReferenceIdeal.Facts₀.bcast_S640000_S640000x1_0 dst)
          (Host.gather Cert.ReferenceIdeal.gather_S100000x128_S640000x1_S640000x128_1_0_n_n_0_1_1128
            (maximumf
              (addf (Host.dotGeneral Cert.ReferenceIdeal.dot_S100000x128_S128x128_S100000x128_1_0_0_1_n_n none x
                  (transpose Cert.ReferenceIdeal.S128x128 [1, 0] wm Cert.ReferenceIdeal.Facts₀.transposes_S128x128_S128x128_1_0))
                (broadcastInDim Cert.ReferenceIdeal.S100000x128 ![0, 1] Cert.ReferenceIdeal.Facts₀.bcast_S1x128_S100000x128_0_1
                  (broadcastInDim Cert.ReferenceIdeal.S1x128 ![1] Cert.ReferenceIdeal.Facts₀.bcast_S128_S1x128_1 bm)))
              (broadcastInDim Cert.ReferenceIdeal.S100000x128 ![] Cert.ReferenceIdeal.Facts₀.bcast_S_S100000x128 (constant Cert.ReferenceIdeal.S_ .f32 0x00000000#32)))
            (broadcastInDim Cert.ReferenceIdeal.S640000x1 ![0] Cert.ReferenceIdeal.Facts₀.bcast_S640000_S640000x1_0
              (select (cmpi .slt src (broadcastInDim Cert.ReferenceIdeal.S640000 ![] Cert.ReferenceIdeal.Facts₀.bcast_S_S640000 (constantI Cert.ReferenceIdeal.S_ 32 0#32)))
                (addi src (broadcastInDim Cert.ReferenceIdeal.S640000 ![] Cert.ReferenceIdeal.Facts₀.bcast_S_S640000 (constantI Cert.ReferenceIdeal.S_ 32 100000#32)))
                src))))
        (transpose Cert.ReferenceIdeal.S128x128 [1, 0] wo Cert.ReferenceIdeal.Facts₀.transposes_S128x128_S128x128_1_0))
      (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 bo))
    = Cert.KernelIdeal.Result.out x src dst wm bm wo bo := by
  rw [Cert.ReferenceIdeal.RefValue.layerRelu_eq, Cert.ReferenceIdeal.RefValue.layer_eq]
  unfold Cert.KernelIdeal.Result.out Cert.KernelIdeal.Result.agg
  rw [Cert.KernelIdeal.Take.take_eq_gather _ _ hsrc, bias_row bm, bias_row bo]
  rfl

end Cert.Bridge

end
-- ==== Proof.PreRange.lean ====
/-
  The precondition read back at the source indices: its last conjunct is `all((src ≥ 0) & (src < 100000))`, a reduction
  by `and` of the two signed comparisons at every edge; the whole predicate being 1 makes that conjunct 1, and a reduction
  by `and` that is 1 met a 1 at every edge. So every source index is a node index.
-/
import proofs.«424247_j22746146799734_1_alg».proof.Proof.Gen.Pre_finite_inputs
import Idealize.ShloMosaic.Lib.ReduceAll
import Idealize.ShloMosaic.Lib.ValueIdx
import Idealize.ShloMosaic.Lib.Affine

noncomputable section

namespace Cert.Pre_finite_inputs.Range

open Cert.Pre_finite_inputs Idealize.ShloMosaic Idealize.ShloMosaic.ValueIdx

variable {F : FTy → Type} [FloatOps F]

instance : Subsingleton S_.Idx := ⟨fun a b => funext fun d => d.elim0⟩

/-- Under the precondition every source index lies in [0, 100000), as two signed comparisons. -/
theorem src_range (a0 : FVec F S100000x128 .f32) (a1 a2 : IVec S640000 32) (a3 : FVec F S128x128 .f32) (a4 : FVec F S128 .f32)
    (a5 : FVec F S128x128 .f32) (a6 : FVec F S128 .f32)
    (h : fn (F := F) a0 a1 a2 a3 a4 a5 a6 = fun _ => 1#1) (e : S640000.Idx) :
    IntOp.cmpi .sge (a1 e) 0#32 = 1#1 ∧ IntOp.cmpi .slt (a1 e) 100000#32 = 1#1 := by
  have h0 := congrFun h ix0
  dsimp only [fn, fn_part1] at h0
  obtain ⟨-, h29⟩ := IntOp.andi_eq_one.1 h0
  have h28 := Host.reduce_andi_all _ _ _ _ _ h29 e
  exact IntOp.andi_eq_one.1 h28

end Cert.Pre_finite_inputs.Range

end
-- ==== Proof.lean ====
/-
  Message passing on a graph of 100000 nodes and 640000 edges: h = max(x · Wₘᵀ + bₘ, 0) per node, the rows of h gathered at
  the edges' source nodes and summed at their destination nodes, then  agg · Wₒᵀ + bₒ. The kernel program computes the two
  dense layers in two pipelined kernels over blocks of 5000 rows (the matrix unit fed through a narrower format, which is
  the identity on extended reals) and leaves the gather and the scatter-add to host operations; the reference is the same
  composition in host operations only. The two agree where every source index is a node index, 0 ≤ src[e] < 100000: there
  the kernel program's guarded gather (fill outside the table) and the reference's (clamped) read the same rows. That
  range is part of the precondition; the finiteness of the float inputs is not used.

  The frames of the two kernel programs are the generated ones; the reference's frame is its generated run with the
  result dropped; the idealization rewrote nothing. For the value claim the kernel program's run is read with its result
  named (`KernelRun`), the result is walked back through the regions and host stretches to one function of the arguments
  (`Result.out`), and the reference's run term is shown to be that function (`Bridge.ref_eq_out`).
-/
import proofs.«424247_j22746146799734_1_alg».proof.Defs
import proofs.«424247_j22746146799734_1_alg».proof.Proof.Gen.Kernel
import proofs.«424247_j22746146799734_1_alg».proof.Proof.Gen.Kernel.Skeleton
import proofs.«424247_j22746146799734_1_alg».proof.Proof.Gen.Kernel.Launch
import proofs.«424247_j22746146799734_1_alg».proof.Proof.Gen.Kernel.Points
import proofs.«424247_j22746146799734_1_alg».proof.Proof.Gen.Kernel.Frame
import proofs.«424247_j22746146799734_1_alg».proof.Proof.Gen.KernelIdeal
import proofs.«424247_j22746146799734_1_alg».proof.Proof.Gen.KernelIdeal.Skeleton
import proofs.«424247_j22746146799734_1_alg».proof.Proof.Gen.KernelIdeal.Launch
import proofs.«424247_j22746146799734_1_alg».proof.Proof.Gen.KernelIdeal.Points
import proofs.«424247_j22746146799734_1_alg».proof.Proof.Gen.KernelIdeal.Frame
import proofs.«424247_j22746146799734_1_alg».proof.Proof.Gen.ReferenceIdeal
import proofs.«424247_j22746146799734_1_alg».proof.Proof.Gen.Pre_finite_inputs
import proofs.«424247_j22746146799734_1_alg».proof.Proof.Gen.ReferenceIdeal.Run
import proofs.«424247_j22746146799734_1_alg».proof.Proof.Gen.ReferenceIdeal.Read
import proofs.«424247_j22746146799734_1_alg».proof.Proof.KernelRun
import proofs.«424247_j22746146799734_1_alg».proof.Proof.Result
import proofs.«424247_j22746146799734_1_alg».proof.Proof.Bridge
import proofs.«424247_j22746146799734_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `Result.out` of the arguments: the kernel program by its run read back,
    the reference by its run term, equal to that function where the source indices are node indices. -/
theorem algebraic : Cert.algebraic_KernelIdeal_ReferenceIdeal := by
  intro m ρ m' ρ' hpre hagree
  refine ⟨fun c => Cert.KernelIdeal.Result.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [a0, a1, a2, a3, a4, a5, a6]
    exact Cert.Bridge.ref_eq_out _ _ _ _ _ _ _ (Cert.Pre_finite_inputs.Range.src_range _ _ _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
